-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1048576x32 .f32) (main_arg1 : FVec F S32x128 .f32) (main_arg2 : FVec F S128 .f32) (main_arg3 : FVec F S128x128 .f32) (main_arg4 : FVec F S128 .f32) (main_arg5 : FVec F S128x64 .f32) (main_arg6 : FVec F S64 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1048576x32 : Shape := ⟨2, ![1048576, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S32x256 : Shape := ⟨2, ![32, 256]⟩
abbrev S64x256 : Shape := ⟨2, ![64, 256]⟩
abbrev S128x256 : Shape := ⟨2, ![128, 256]⟩
abbrev S256x256 : Shape := ⟨2, ![256, 256]⟩
abbrev S256x128 : Shape := ⟨2, ![256, 128]⟩
abbrev S256 : Shape := ⟨1, ![256]⟩
abbrev S1x256 : Shape := ⟨2, ![1, 256]⟩
abbrev S1x128 : Shape := ⟨2, ![1, 128]⟩
abbrev S524288x64 : Shape := ⟨2, ![524288, 64]⟩
abbrev S524288x128 : Shape := ⟨2, ![524288, 128]⟩
abbrev S4096x64 : Shape := ⟨2, ![4096, 64]⟩
abbrev S4096x128 : Shape := ⟨2, ![4096, 128]⟩
abbrev S4096x256 : Shape := ⟨2, ![4096, 256]⟩
abbrev S1048576x64 : Shape := ⟨2, ![1048576, 64]⟩

abbrev nBuf : Space → Nat
  | .hbm => 34
  | .vmem => 10
  | .smem => 0
  | _ => 0

abbrev bufTy : (tb : Table) → Fin (tcTables nBuf tb) → BufTy
  | .hbm, ⟨0, _⟩ => ⟨S1048576x32, .f32⟩
  | .hbm, ⟨1, _⟩ => ⟨S32x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S32x128, .f32⟩
  | .hbm, ⟨9, _⟩ => ⟨S32x256, .f32⟩
  | .hbm, ⟨10, _⟩ => ⟨S32x256, .f32⟩
  | .hbm, ⟨11, _⟩ => ⟨S64x256, .f32⟩
  | .hbm, ⟨12, _⟩ => ⟨S64x256, .bf16⟩
  | .hbm, ⟨13, _⟩ => ⟨S_, .f32⟩
  | .hbm, ⟨14, _⟩ => ⟨S128x128, .f32⟩
  | .hbm, ⟨15, _⟩ => ⟨S128x256, .f32⟩
  | .hbm, ⟨16, _⟩ => ⟨S128x256, .f32⟩
  | .hbm, ⟨17, _⟩ => ⟨S256x256, .f32⟩
  | .hbm, ⟨18, _⟩ => ⟨S256x256, .bf16⟩
  | .hbm, ⟨19, _⟩ => ⟨S_, .f32⟩
  | .hbm, ⟨20, _⟩ => ⟨S128x64, .f32⟩
  | .hbm, ⟨21, _⟩ => ⟨S128x128, .f32⟩
  | .hbm, ⟨22, _⟩ => ⟨S128x128, .f32⟩
  | .hbm, ⟨23, _⟩ => ⟨S256x128, .f32⟩
  | .hbm, ⟨24, _⟩ => ⟨S256x128, .bf16⟩
  | .hbm, ⟨25, _⟩ => ⟨S256, .f32⟩
  | .hbm, ⟨26, _⟩ => ⟨S1x256, .f32⟩
  | .hbm, ⟨27, _⟩ => ⟨S256, .f32⟩
  | .hbm, ⟨28, _⟩ => ⟨S1x256, .f32⟩
  | .hbm, ⟨29, _⟩ => ⟨S128, .f32⟩
  | .hbm, ⟨30, _⟩ => ⟨S1x128, .f32⟩
  | .hbm, ⟨31, _⟩ => ⟨S524288x64, .f32⟩
  | .hbm, ⟨32, _⟩ => ⟨S524288x128, .f32⟩
  | .hbm, ⟨33, _⟩ => ⟨S1048576x64, .f32⟩
  | .local _ .vmem, ⟨0, _⟩ => ⟨S4096x64, .f32⟩
  | .local _ .vmem, ⟨1, _⟩ => ⟨S4096x64, .f32⟩
  | .local _ .vmem, ⟨2, _⟩ => ⟨S64x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S32x128 : S_.BroadcastsInDim S32x128 (![] : Fin 0 → Fin S32x128.rank)
  concatenates_S32x128_S32x128_S32x256_d1 : Shape.Concatenates [S32x128, S32x128] S32x256 1
  concatenates_S32x256_S32x256_S64x256_d0 : Shape.Concatenates [S32x256, S32x256] S64x256 0
  bitsLt_bf16_f32 : FTy.bits .bf16 < FTy.bits .f32
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  concatenates_S128_S128_S256_d0 : Shape.Concatenates [S128, S128] S256 0
  shapeCasts_S256_S1x256 : S256.ShapeCasts S1x256
  concatenates_S64_S64_S128_d0 : Shape.Concatenates [S64, S64] S128 0
  shapeCasts_S128_S1x128 : S128.ShapeCasts S1x128
  shapeCasts_S1048576x32_S524288x64 : S1048576x32.ShapeCasts S524288x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S524288x128_S1048576x64 : S524288x128.ShapeCasts S1048576x64
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S524288x128.size a
  hwx0_7 : ∀ i : grid0.Coords, EltTy.bits .f32 = 32 ∨ (Rect.block (s := S524288x128) S4096x128.size (cc0_transform_7 i) (hinb0_7 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v21) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1048576x128 : Shape := ⟨2, ![1048576, 128]⟩
abbrev S1x128 : Shape := ⟨2, ![1, 128]⟩
abbrev S_ : Shape := ⟨0, ![]⟩
abbrev S1048576x64 : Shape := ⟨2, ![1048576, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S32x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1048576x128, .f32⟩
  | .hbm, ⟨8, _⟩ => ⟨S1x128, .f32⟩
  | .hbm, ⟨9, _⟩ => ⟨S1048576x128, .f32⟩
  | .hbm, ⟨10, _⟩ => ⟨S1048576x128, .f32⟩
  | .hbm, ⟨11, _⟩ => ⟨S_, .f32⟩
  | .hbm, ⟨12, _⟩ => ⟨S1048576x128, .f32⟩
  | .hbm, ⟨13, _⟩ => ⟨S1048576x128, .f32⟩
  | .hbm, ⟨14, _⟩ => ⟨S1048576x128, .f32⟩
  | .hbm, ⟨15, _⟩ => ⟨S1x128, .f32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S1048576x128, .f32⟩
  | .hbm, ⟨20, _⟩ => ⟨S1048576x128, .f32⟩
  | .hbm, ⟨21, _⟩ => ⟨S1048576x64, .f32⟩
  | .hbm, ⟨22, _⟩ => ⟨S1x64, .f32⟩
  | .hbm, ⟨23, _⟩ => ⟨S1048576x64, .f32⟩
  | .hbm, ⟨24, _⟩ => ⟨S1048576x64, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  dot_S1048576x32_S32x128_S1048576x128_1_0_0_1_n_n_wf : DotDims.WF S1048576x32 S32x128 S1048576x128 [1] [0] [0] [1] [] []
  dot_S1048576x128_S128x128_S1048576x128_1_0_0_1_n_n_wf : DotDims.WF S1048576x128 S128x128 S1048576x128 [1] [0] [0] [1] [] []
  dot_S1048576x128_S128x64_S1048576x64_1_0_0_1_n_n_wf : DotDims.WF S1048576x128 S128x64 S1048576x64 [1] [0] [0] [1] [] []

variable [Facts₀]

def dot_S1048576x32_S32x128_S1048576x128_1_0_0_1_n_n : DotDims S1048576x32 S32x128 S1048576x128 where
  lhsContracting := [1]
  rhsContracting := [0]
  lhsNonContracting := [0]
  rhsNonContracting := [1]
  lhsBatch := []
  rhsBatch := []
  wf := dot_S1048576x32_S32x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf

class Facts : Prop extends Facts₀ where

variable [Facts]
-- ==== Proof.KernelArrays.lean ====
/-
  What the kernel's launch finds in its seven input arrays, and what each grid point's blocks are.

  Before the launch the host lays each weight matrix `W` out as `diag(W, W)` (two concatenations along the columns
  with a zero matrix, one along the rows, then a change of float format), each bias as the bias twice over, cast to
  one row, and the input `z` re-cut from 1048576 rows of 32 to 524288 rows of 64.  The launch's grid has 128 points;
  point `t` reads rows `4096 t … 4096 t + 4095` of the re-cut input and the whole of every weight and bias array.
-/
import proofs.«422779_j27066883900215_3_alg».proof.Proof.Gen.KernelIdeal.Frame
import Idealize.ShloMosaic.Lib.StableHlo.Run
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The host's layouts, as functions of the argument arrays -/

/-- The first layer's weight as `diag(W1, W1)`, 64 × 256. -/
def diagW1 (A : FVec F S32x128 .f32) : FVec F S64x256 .bf16 :=
  truncf .bf16
    (concatenate S64x256 0
      [⟨S32x256, concatenate S32x256 1 [⟨S32x128, A⟩, ⟨S32x128, broadcastInDim S32x128 ![] bcast_S_S32x128 (constant S_ .f32 0x00000000#32)⟩] concatenates_S32x128_S32x128_S32x256_d1⟩,
        ⟨S32x256, concatenate S32x256 1 [⟨S32x128, broadcastInDim S32x128 ![] bcast_S_S32x128 (constant S_ .f32 0x00000000#32)⟩, ⟨S32x128, A⟩] concatenates_S32x128_S32x128_S32x256_d1⟩]
      concatenates_S32x256_S32x256_S64x256_d0)
    bitsLt_bf16_f32

/-- The second layer's weight as `diag(W2, W2)`, 256 × 256. -/
def diagW2 (A : FVec F S128x128 .f32) : FVec F S256x256 .bf16 :=
  truncf .bf16
    (concatenate S256x256 0
      [⟨S128x256, concatenate S128x256 1 [⟨S128x128, A⟩, ⟨S128x128, broadcastInDim S128x128 ![] bcast_S_S128x128 (constant S_ .f32 0x00000000#32)⟩] concatenates_S128x128_S128x128_S128x256_d1⟩,
        ⟨S128x256, concatenate S128x256 1 [⟨S128x128, broadcastInDim S128x128 ![] bcast_S_S128x128 (constant S_ .f32 0x00000000#32)⟩, ⟨S128x128, A⟩] concatenates_S128x128_S128x128_S128x256_d1⟩]
      concatenates_S128x256_S128x256_S256x256_d0)
    bitsLt_bf16_f32

/-- The third layer's weight as `diag(W3, W3)`, 256 × 128. -/
def diagW3 (A : FVec F S128x64 .f32) : FVec F S256x128 .bf16 :=
  truncf .bf16
    (concatenate S256x128 0
      [⟨S128x128, concatenate S128x128 1 [⟨S128x64, A⟩, ⟨S128x64, broadcastInDim S128x64 ![] bcast_S_S128x64 (constant S_ .f32 0x00000000#32)⟩] concatenates_S128x64_S128x64_S128x128_d1⟩,
        ⟨S128x128, concatenate S128x128 1 [⟨S128x64, broadcastInDim S128x64 ![] bcast_S_S128x64 (constant S_ .f32 0x00000000#32)⟩, ⟨S128x64, A⟩] concatenates_S128x64_S128x64_S128x128_d1⟩]
      concatenates_S128x128_S128x128_S256x128_d0)
    bitsLt_bf16_f32

/-- A bias of length 128 twice over, as one row of 256. -/
def twice256 (b : FVec F S128 .f32) : FVec F S1x256 .f32 :=
  shapeCast S1x256 (concatenate S256 0 [⟨S128, b⟩, ⟨S128, b⟩] concatenates_S128_S128_S256_d0) shapeCasts_S256_S1x256

/-- A bias of length 64 twice over, as one row of 128. -/
def twice128 (b : FVec F S64 .f32) : FVec F S1x128 .f32 :=
  shapeCast S1x128 (concatenate S128 0 [⟨S64, b⟩, ⟨S64, b⟩] concatenates_S64_S64_S128_d0) shapeCasts_S128_S1x128

/-- The input re-cut: row `R` is rows `2R` and `2R + 1` of `z` side by side. -/
def rowPairs (z : FVec F S1048576x32 .f32) : FVec F S524288x64 .f32 :=
  shapeCast S524288x64 z shapeCasts_S1048576x32_S524288x64

variable (m : (ℓ : Loc nD τ sig) → Buf (Elt F) ℓ)

/-! ## The arrays as the launch finds them -/

theorem V_w1 (c : Dev nD) : (V m c main_v4 : Vec F S64x256 .bf16) = diagW1 (m ((c : Thread nD τ).loc main_arg1)) := by
  show StableHlo.after hostOps0 (fun b => m (c, b)) (Proc.devRef .tc main_v4) = _
  after_results; rfl
theorem V_b1 (c : Dev nD) : (V m c main_v16 : Vec F S1x256 .f32) = twice256 (m ((c : Thread nD τ).loc main_arg2)) := by
  show StableHlo.after hostOps0 (fun b => m (c, b)) (Proc.devRef .tc main_v16) = _
  after_results; rfl
theorem V_w2 (c : Dev nD) : (V m c main_v9 : Vec F S256x256 .bf16) = diagW2 (m ((c : Thread nD τ).loc main_arg3)) := by
  show StableHlo.after hostOps0 (fun b => m (c, b)) (Proc.devRef .tc main_v9) = _
  after_results; rfl
theorem V_b2 (c : Dev nD) : (V m c main_v18 : Vec F S1x256 .f32) = twice256 (m ((c : Thread nD τ).loc main_arg4)) := by
  show StableHlo.after hostOps0 (fun b => m (c, b)) (Proc.devRef .tc main_v18) = _
  after_results; rfl
theorem V_w3 (c : Dev nD) : (V m c main_v14 : Vec F S256x128 .bf16) = diagW3 (m ((c : Thread nD τ).loc main_arg5)) := by
  show StableHlo.after hostOps0 (fun b => m (c, b)) (Proc.devRef .tc main_v14) = _
  after_results; rfl
theorem V_b3 (c : Dev nD) : (V m c main_v20 : Vec F S1x128 .f32) = twice128 (m ((c : Thread nD τ).loc main_arg6)) := by
  show StableHlo.after hostOps0 (fun b => m (c, b)) (Proc.devRef .tc main_v20) = _
  after_results; rfl
theorem V_z (c : Dev nD) : (V m c main_v21 : Vec F S524288x64 .f32) = rowPairs (m ((c : Thread nD τ).loc main_arg0)) := by
  show StableHlo.after hostOps0 (fun b => m (c, b)) (Proc.devRef .tc main_v21) = _
  after_results; rfl

/-! ## The index maps, decided over the grid -/

/-- Point `t` takes block row `t` of the input and of the output, and block `(0, 0)` of every weight and bias. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

end Cert.KernelIdeal.Arrays

end
-- ==== Proof.PlainDot.lean ====
/-
  A plain matrix product read at an entry.

  For dimension numbers "contract the left operand's axis 1 with the right operand's axis 0, no batch axes" the
  product of an `M × K` by a `K × N` array at entry `(i, j)` is `∑ k, l (i, k) * r (k, j)`: the contraction index
  has one axis of extent `K`, the left operand is read at (output row, contraction position) and the right operand
  at (contraction position, output column).  Stated for any record that IS the plain one, so that it applies to a
  program's own record by `rfl`.
-/
import Idealize.ShloMosaic.Lib.ValueIdx
import Idealize.ShloMosaic.PureOps.Ideal.Laws

noncomputable section

open scoped BigOperators

namespace Cert.Packed

open Idealize.ShloMosaic Idealize.ShloMosaic.ValueIdx

variable {M K N : ℕ}

/-- The left operand's row is the output's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at entry `(i, j)`, over the plain index `k : Fin K`. -/
theorem plain_contraction (l : (⟨2, ![M, K]⟩ : Shape).Idx → EReal) (r : (⟨2, ![K, N]⟩ : Shape).Idx → EReal)
    (i : Fin M) (j : Fin N) :
    ∑ q : (DotDims.plain M K N).contr.Idx,
        l ((DotDims.plain M K N).lhsIdx (ix2 i j) q) * r ((DotDims.plain M K N).rhsIdx (ix2 i j) q)
      = ∑ k : Fin K, l (ix2 i k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact plain_lhs_row _ _
      | ⟨1, _⟩ => exact (plain_lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A kernel's matrix product into a zero accumulator, at the extended reals, read at entry `(i, j)`. -/
theorem matmul_zero_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (i : Fin M) (j : Fin N) :
    FloatOps.matmul d prec l r (constant ⟨2, ![M, N]⟩ .f32 0x00000000#32) (ix2 i j) = ∑ k : Fin K, l (ix2 i k) * r (ix2 k j) := by
  subst hd
  exact (Ideal.matmul_constant_zero_apply _ prec l r (ix2 i j)).trans (plain_contraction l r i j)

/-- The host's `dot_general` with the same dimension numbers, read at entry `(i, j)`. -/
theorem dotGeneral_plain {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (i : Fin M) (j : Fin N) :
    FloatOps.dotGeneral d prec sched l r (ix2 i j) = ∑ k : Fin K, l (ix2 i k) * r (ix2 k j) := by
  subst hd
  exact (Ideal.dotGeneral_apply _ prec sched l r (ix2 i j)).trans (plain_contraction l r i j)

end Cert.Packed

end
-- ==== Proof.PackedSum.lean ====
/-
  Two rows through one block-diagonal weight.

  A dense layer `x ↦ x · W + b` applied to two rows at once can be written as ONE product: lay the two rows side by
  side as a row of length `K + K`, and use the weight `diag(W, W)`, whose off-diagonal blocks are zero.  Column `n`
  of the first diagonal block then sees only the first row (the other half of the sum meets zeros), and column `n` of
  the second block sees only the second row.  On the extended reals `x * 0 = 0` for EVERY `x`, infinite ones
  included, and `a + 0 = a`, so no finiteness is needed: the sum over `K + K` terms is the sum over the `K` terms
  of the block that is not zero.
-/
import Mathlib.Algebra.BigOperators.Fin
import Mathlib.Data.EReal.Basic

open scoped BigOperators

namespace Cert.Packed

/-- A sum over `K + K` terms is the sum over the first `K` plus the sum over the last `K`. -/
theorem sum_two_halves {K M : ℕ} (hM : M = K + K) (f : Fin M → EReal) :
    ∑ k, f k = (∑ k : Fin K, f ⟨k.val, by omega⟩) + ∑ k : Fin K, f ⟨K + k.val, by omega⟩ := by
  subst hM
  rw [Fin.sum_univ_add]
  rfl

/-- A column of the FIRST diagonal block: the weights of the second half are zero, so only the first row counts. -/
theorem sum_first_block {K M : ℕ} (hM : M = K + K) (xp wcol : Fin M → EReal) (x w : Fin K → EReal)
    (hx : ∀ k : Fin K, xp ⟨k.val, by omega⟩ = x k)
    (hw : ∀ k : Fin K, wcol ⟨k.val, by omega⟩ = w k)
    (hz : ∀ k : Fin K, wcol ⟨K + k.val, by omega⟩ = 0) :
    ∑ k, xp k * wcol k = ∑ k, x k * w k := by
  rw [sum_two_halves hM]
  simp only [hx, hw, hz, mul_zero, Finset.sum_const_zero, add_zero]

/-- A column of the SECOND diagonal block: the weights of the first half are zero, so only the second row counts. -/
theorem sum_second_block {K M : ℕ} (hM : M = K + K) (xp wcol : Fin M → EReal) (x w : Fin K → EReal)
    (hx : ∀ k : Fin K, xp ⟨K + k.val, by omega⟩ = x k)
    (hw : ∀ k : Fin K, wcol ⟨K + k.val, by omega⟩ = w k)
    (hz : ∀ k : Fin K, wcol ⟨k.val, by omega⟩ = 0) :
    ∑ k, xp k * wcol k = ∑ k, x k * w k := by
  rw [sum_two_halves hM]
  simp only [hx, hw, hz, mul_zero, Finset.sum_const_zero, zero_add]

end Cert.Packed
-- ==== Proof.PairedMlp.lean ====
/-
  A three-layer perceptron on two rows at once.

  `mlp x W1 b1 W2 b2 W3 b3` is the network `relu (relu (x·W1 + b1)·W2 + b2)·W3 + b3` of ONE input row `x`, entry by
  entry, over the extended reals, at any sizes.

  Say a row `xp` of length `K + K` PAIRS the rows `x₀` and `x₁` of length `K` when its first half is `x₀` and its
  second half `x₁`; a matrix is BLOCK-DIAGONAL over `W` when its two diagonal blocks are `W` and the other two are
  zero; a vector is `b` DOUBLED when both halves are `b`.  Then a dense layer with a block-diagonal weight and a
  doubled bias sends a pair of rows to the pair of their images (each half of the long sum meets either `W` or zeros,
  and `x * 0 = 0` for every extended real), the rectifier acts entry by entry and so keeps pairs, and the whole
  network at the doubled sizes therefore sends the pair `(x₀, x₁)` to the pair `(mlp x₀, mlp x₁)`.
-/
import Idealize.ShloMosaic.Lib.ValueIdx
import proofs.«422779_j27066883900215_3_alg».proof.Proof.PackedSum

noncomputable section

open scoped BigOperators

namespace Cert.Packed

open Idealize.ShloMosaic Idealize.ShloMosaic.ValueIdx

/-- One dense layer at output entry `n`: `∑ k, x k * W (k, n) + b n`. -/
def dense {K N : ℕ} (x : Fin K → EReal) (W : (⟨2, ![K, N]⟩ : Shape).Idx → EReal) (b : Fin N → EReal) (n : Fin N) : EReal :=
  (∑ k : Fin K, x k * W (ix2 k n)) + b n

/-- The rectifier, entry by entry. -/
def relu {N : ℕ} (v : Fin N → EReal) (n : Fin N) : EReal := max (v n) 0

/-- The three-layer network of one row. -/
def mlp {K H O : ℕ} (x : Fin K → EReal)
    (W1 : (⟨2, ![K, H]⟩ : Shape).Idx → EReal) (b1 : Fin H → EReal)
    (W2 : (⟨2, ![H, H]⟩ : Shape).Idx → EReal) (b2 : Fin H → EReal)
    (W3 : (⟨2, ![H, O]⟩ : Shape).Idx → EReal) (b3 : Fin O → EReal) : Fin O → EReal :=
  dense (relu (dense (relu (dense x W1 b1)) W2 b2)) W3 b3

/-- `xp` is `x₀` followed by `x₁`. -/
structure IsPair {K M : ℕ} (hM : M = K + K) (xp : Fin M → EReal) (x₀ x₁ : Fin K → EReal) : Prop where
  lo : ∀ k : Fin K, xp ⟨k.val, by omega⟩ = x₀ k
  hi : ∀ k : Fin K, xp ⟨K + k.val, by omega⟩ = x₁ k

/-- `Wp` is `diag(W, W)`. -/
structure IsBlockDiag {K N M P : ℕ} (hM : M = K + K) (hP : P = N + N)
    (Wp : (⟨2, ![M, P]⟩ : Shape).Idx → EReal) (W : (⟨2, ![K, N]⟩ : Shape).Idx → EReal) : Prop where
  ul : ∀ (k : Fin K) (n : Fin N), Wp (ix2 ⟨k.val, by omega⟩ ⟨n.val, by omega⟩) = W (ix2 k n)
  ur : ∀ (k : Fin K) (n : Fin N), Wp (ix2 ⟨k.val, by omega⟩ ⟨N + n.val, by omega⟩) = 0
  ll : ∀ (k : Fin K) (n : Fin N), Wp (ix2 ⟨K + k.val, by omega⟩ ⟨n.val, by omega⟩) = 0
  lr : ∀ (k : Fin K) (n : Fin N), Wp (ix2 ⟨K + k.val, by omega⟩ ⟨N + n.val, by omega⟩) = W (ix2 k n)

/-- A dense layer with a block-diagonal weight and a doubled bias sends a pair of rows to the pair of their images. -/
theorem dense_pair {K N M P : ℕ} (hM : M = K + K) (hP : P = N + N)
    {xp : Fin M → EReal} {x₀ x₁ : Fin K → EReal} (hx : IsPair hM xp x₀ x₁)
    {Wp : (⟨2, ![M, P]⟩ : Shape).Idx → EReal} {W : (⟨2, ![K, N]⟩ : Shape).Idx → EReal} (hW : IsBlockDiag hM hP Wp W)
    {bp : Fin P → EReal} {b : Fin N → EReal} (hb : IsPair hP bp b b) :
    IsPair hP (dense xp Wp bp) (dense x₀ W b) (dense x₁ W b) where
  lo n := by
    unfold dense
    rw [hb.lo n, sum_first_block hM xp (fun k => Wp (ix2 k ⟨n.val, by omega⟩)) x₀ (fun k => W (ix2 k n))
      hx.lo (fun k => hW.ul k n) (fun k => hW.ll k n)]
  hi n := by
    unfold dense
    rw [hb.hi n, sum_second_block hM xp (fun k => Wp (ix2 k ⟨N + n.val, by omega⟩)) x₁ (fun k => W (ix2 k n))
      hx.hi (fun k => hW.lr k n) (fun k => hW.ur k n)]

/-- The rectifier keeps pairs. -/
theorem relu_pair {K M : ℕ} (hM : M = K + K) {xp : Fin M → EReal} {x₀ x₁ : Fin K → EReal} (hx : IsPair hM xp x₀ x₁) :
    IsPair hM (relu xp) (relu x₀) (relu x₁) where
  lo k := by unfold relu; rw [hx.lo k]
  hi k := by unfold relu; rw [hx.hi k]

/-- The network at the doubled sizes, with block-diagonal weights and doubled biases, sends a pair of rows to the
    pair of the network's values on each. -/
theorem mlp_pair {K H O K2 H2 O2 : ℕ} (hK : K2 = K + K) (hH : H2 = H + H) (hO : O2 = O + O)
    {xp : Fin K2 → EReal} {x₀ x₁ : Fin K → EReal} (hx : IsPair hK xp x₀ x₁)
    {W1p : (⟨2, ![K2, H2]⟩ : Shape).Idx → EReal} {W1 : (⟨2, ![K, H]⟩ : Shape).Idx → EReal} (h1 : IsBlockDiag hK hH W1p W1)
    {b1p : Fin H2 → EReal} {b1 : Fin H → EReal} (hb1 : IsPair hH b1p b1 b1)
    {W2p : (⟨2, ![H2, H2]⟩ : Shape).Idx → EReal} {W2 : (⟨2, ![H, H]⟩ : Shape).Idx → EReal} (h2 : IsBlockDiag hH hH W2p W2)
    {b2p : Fin H2 → EReal} {b2 : Fin H → EReal} (hb2 : IsPair hH b2p b2 b2)
    {W3p : (⟨2, ![H2, O2]⟩ : Shape).Idx → EReal} {W3 : (⟨2, ![H, O]⟩ : Shape).Idx → EReal} (h3 : IsBlockDiag hH hO W3p W3)
    {b3p : Fin O2 → EReal} {b3 : Fin O → EReal} (hb3 : IsPair hO b3p b3 b3) :
    IsPair hO (mlp xp W1p b1p W2p b2p W3p b3p) (mlp x₀ W1 b1 W2 b2 W3 b3) (mlp x₁ W1 b1 W2 b2 W3 b3) :=
  dense_pair hH hO (relu_pair hH (dense_pair hH hH (relu_pair hH (dense_pair hK hH hx h1 hb1)) h2 hb2)) h3 hb3

end Cert.Packed

end
-- ==== Proof.KernelPoint.lean ====
/-
  One entry of what the kernel body stores.

  The body computes, from its seven loaded blocks, three matrix products into zero accumulators, each followed by
  the addition of a bias row broadcast over the block's rows, the first two also by a maximum with zero; between
  them only changes of float format, which are the identity on extended reals, and casts of a shape to itself.  At
  entry `(r, c)` of the block this is the three-layer network of row `r` of the input block, with the loaded weight
  blocks as weights and the loaded bias rows as biases, at entry `c`.
-/
import proofs.«422779_j27066883900215_3_alg».proof.Proof.Gen.KernelIdeal.Skeleton
import proofs.«422779_j27066883900215_3_alg».proof.Proof.PlainDot
import proofs.«422779_j27066883900215_3_alg».proof.Proof.PairedMlp
import Idealize.ShloMosaic.Lib.ValueLayout

noncomputable section

open scoped BigOperators

namespace Cert.KernelIdeal.Point

open Cert.KernelIdeal Cert.KernelIdeal.Gen Idealize.ShloMosaic Idealize.ShloMosaic.ValueIdx Cert.Packed

/-- A matrix product into a zero accumulator plus a broadcast bias row, at entry `(r, n)`, is the dense layer of row
    `r` at `n`. -/
theorem layer_apply {R K N : ℕ} {φ₁ φ₂ : FTy} (d : DotDims ⟨2, ![R, K]⟩ ⟨2, ![K, N]⟩ ⟨2, ![R, N]⟩) (hd : d = DotDims.plain R K N)
    (x : FVec Ideal ⟨2, ![R, K]⟩ φ₁) (w : FVec Ideal ⟨2, ![K, N]⟩ φ₂) (bb : FVec Ideal ⟨2, ![1, N]⟩ .f32)
    (hbc : (⟨2, ![1, N]⟩ : Shape).Broadcasts ⟨2, ![R, N]⟩) (r : Fin R) (n : Fin N) :
    addf (matmul d none x w (constant ⟨2, ![R, N]⟩ .f32 0x00000000#32)) (broadcastTo ⟨2, ![R, N]⟩ bb hbc) (ix2 r n)
      = dense (fun k => x (ix2 r k)) w (fun n => bb (ix2 (0 : Fin 1) n)) n := by
  rw [addf_apply, broadcastTo_1b_ab_apply]
  exact congrArg (· + bb (ix2 (0 : Fin 1) n)) (matmul_zero_plain d hd none x w r n)

/-- A maximum with the zero word, then a change of float format: at entry `(r, n)` the rectifier of the entry. -/
theorem rectify_apply {R N : ℕ} (v : FVec Ideal ⟨2, ![R, N]⟩ .f32) (hlt : FTy.bf16.bits < FTy.f32.bits)
    (f : Fin N → EReal) (r : Fin R) (hv : ∀ n, v (ix2 r n) = f n) (n : Fin N) :
    (truncf .bf16 (maximumf v (broadcast ⟨2, ![R, N]⟩ (FloatOps.ofBits .f32 0x00000000#32))) hlt : FVec Ideal ⟨2, ![R, N]⟩ .bf16) (ix2 r n)
      = relu f n := by
  show max (v (ix2 r n)) (Ideal.ofBits .f32 0x00000000#32) = max (f n) 0
  rw [hv n, Ideal.ofBits_zero_f32]

/-- The stored value at entry `(r, c)`: the network of row `r` of the input block at `c`. -/
theorem pay_apply (x0 : FVec Ideal S4096x64 .f32) (w1 : FVec Ideal S64x256 .bf16) (bb1 : FVec Ideal S1x256 .f32)
    (w2 : FVec Ideal S256x256 .bf16) (bb2 : FVec Ideal S1x256 .f32) (w3 : FVec Ideal S256x128 .bf16) (bb3 : FVec Ideal S1x128 .f32)
    (r : Fin 4096) (c : Fin 128) :
    k0_pay1 (F := Ideal) x0 w1 bb1 w2 bb2 w3 bb3 (ix2 r c)
      = mlp (fun k => x0 (ix2 r k)) w1 (fun n => bb1 (ix2 (0 : Fin 1) n)) w2 (fun n => bb2 (ix2 (0 : Fin 1) n)) w3
          (fun n => bb3 (ix2 (0 : Fin 1) n)) c := by
  unfold k0_pay1
  simp only [shapeCast_self]
  unfold mlp
  refine (layer_apply _ rfl _ w3 bb3 _ r c).trans ?_
  refine congrArg (fun v => dense v w3 (fun n => bb3 (ix2 (0 : Fin 1) n)) c) (funext fun k => ?_)
  refine rectify_apply _ _ _ r (fun n => ?_) k
  refine (layer_apply _ rfl _ w2 bb2 _ r n).trans ?_
  refine congrArg (fun v => dense v w2 (fun n => bb2 (ix2 (0 : Fin 1) n)) n) (funext fun k' => ?_)
  refine rectify_apply _ _ _ r (fun n' => ?_) k'
  exact layer_apply _ rfl _ w1 bb1 _ r n'

end Cert.KernelIdeal.Point

end
-- ==== Proof.Layout.lean ====
/-
  Two arrays laid side by side, and a matrix re-cut into rows of another length, read at coordinates.

  A concatenation of two pieces along an axis reads, at a coordinate below the first piece's extent, the first piece
  there, and at a coordinate from that extent on, the second piece at the coordinate less the extent.  A row-major
  re-cut of an `a × b` matrix as `c × d` reads, at `(i, j)`, the entry with the same position `i * d + j` in row-major
  order.  Each statement is the definition of the operation read at one index, with that index and the operand's
  index both written by their coordinates.
-/
import Idealize.ShloMosaic.Lib.Pipeline.Value
import Idealize.ShloMosaic.Lib.ValueIdx

namespace Cert.Packed

open Idealize.ShloMosaic Idealize.ShloMosaic.ValueIdx

variable {α : Type}

/-! ## Two matrices stacked: rows of the first, then rows of the second -/

/-- A row above the first piece's height reads the first piece. -/
theorem stack_rows_top {K₁ K₂ K N : ℕ} (x : (⟨2, ![K₁, N]⟩ : Shape).Idx → α) (y : (⟨2, ![K₂, N]⟩ : Shape).Idx → α)
    (h : Shape.Concatenates [⟨2, ![K₁, N]⟩, ⟨2, ![K₂, N]⟩] ⟨2, ![K, N]⟩ 0) (k : Fin K) (c : Fin N) (hk : k.val < K₁) :
    concatenate (⟨2, ![K, N]⟩ : Shape) 0 [⟨⟨2, ![K₁, N]⟩, x⟩, ⟨⟨2, ![K₂, N]⟩, y⟩] h (ix2 k c) = x (ix2 ⟨k.val, hk⟩ c) :=
  concatenate_pair_apply_left (t := ⟨2, ![K, N]⟩) 0 x y h (ix2 k c) rfl (ix2 ⟨k.val, hk⟩ c)
    (fun b => match b with | ⟨0, _⟩ => rfl | ⟨1, _⟩ => rfl)

/-- A row from the first piece's height on reads the second piece, that height less. -/
theorem stack_rows_bottom {K₁ K₂ K N : ℕ} (x : (⟨2, ![K₁, N]⟩ : Shape).Idx → α) (y : (⟨2, ![K₂, N]⟩ : Shape).Idx → α)
    (h : Shape.Concatenates [⟨2, ![K₁, N]⟩, ⟨2, ![K₂, N]⟩] ⟨2, ![K, N]⟩ 0) (k : Fin K) (c : Fin N) (k' : Fin K₂)
    (hk : k'.val + K₁ = k.val) :
    concatenate (⟨2, ![K, N]⟩ : Shape) 0 [⟨⟨2, ![K₁, N]⟩, x⟩, ⟨⟨2, ![K₂, N]⟩, y⟩] h (ix2 k c) = y (ix2 k' c) :=
  concatenate_pair_apply_right (t := ⟨2, ![K, N]⟩) 0 x y h (ix2 k c) rfl rfl (ix2 k' c)
    (fun b hb => match b, hb with
      | ⟨0, _⟩, hb => absurd rfl hb
      | ⟨1, _⟩, _ => rfl)
    hk

/-! ## Two matrices side by side: columns of the first, then columns of the second -/

/-- A column left of the first piece's width reads the first piece. -/
theorem side_cols_left {K N₁ N₂ N : ℕ} (x : (⟨2, ![K, N₁]⟩ : Shape).Idx → α) (y : (⟨2, ![K, N₂]⟩ : Shape).Idx → α)
    (h : Shape.Concatenates [⟨2, ![K, N₁]⟩, ⟨2, ![K, N₂]⟩] ⟨2, ![K, N]⟩ 1) (k : Fin K) (c : Fin N) (hc : c.val < N₁) :
    concatenate (⟨2, ![K, N]⟩ : Shape) 1 [⟨⟨2, ![K, N₁]⟩, x⟩, ⟨⟨2, ![K, N₂]⟩, y⟩] h (ix2 k c) = x (ix2 k ⟨c.val, hc⟩) :=
  concatenate_pair_apply_left (t := ⟨2, ![K, N]⟩) 1 x y h (ix2 k c) rfl (ix2 k ⟨c.val, hc⟩)
    (fun b => match b with | ⟨0, _⟩ => rfl | ⟨1, _⟩ => rfl)

/-- A column from the first piece's width on reads the second piece, that width less. -/
theorem side_cols_right {K N₁ N₂ N : ℕ} (x : (⟨2, ![K, N₁]⟩ : Shape).Idx → α) (y : (⟨2, ![K, N₂]⟩ : Shape).Idx → α)
    (h : Shape.Concatenates [⟨2, ![K, N₁]⟩, ⟨2, ![K, N₂]⟩] ⟨2, ![K, N]⟩ 1) (k : Fin K) (c : Fin N) (c' : Fin N₂)
    (hc : c'.val + N₁ = c.val) :
    concatenate (⟨2, ![K, N]⟩ : Shape) 1 [⟨⟨2, ![K, N₁]⟩, x⟩, ⟨⟨2, ![K, N₂]⟩, y⟩] h (ix2 k c) = y (ix2 k c') :=
  concatenate_pair_apply_right (t := ⟨2, ![K, N]⟩) 1 x y h (ix2 k c) rfl rfl (ix2 k c')
    (fun b hb => match b, hb with
      | ⟨0, _⟩, _ => rfl
      | ⟨1, _⟩, hb => absurd rfl hb)
    hc

/-! ## Two vectors end to end -/

/-- A position before the first vector's length reads the first vector. -/
theorem join_vec_left {N₁ N₂ N : ℕ} (x : (⟨1, ![N₁]⟩ : Shape).Idx → α) (y : (⟨1, ![N₂]⟩ : Shape).Idx → α)
    (h : Shape.Concatenates [⟨1, ![N₁]⟩, ⟨1, ![N₂]⟩] ⟨1, ![N]⟩ 0) (c : Fin N) (hc : c.val < N₁) :
    concatenate (⟨1, ![N]⟩ : Shape) 0 [⟨⟨1, ![N₁]⟩, x⟩, ⟨⟨1, ![N₂]⟩, y⟩] h (ix1 c) = x (ix1 ⟨c.val, hc⟩) :=
  concatenate_pair_apply_left (t := ⟨1, ![N]⟩) 0 x y h (ix1 c) rfl (ix1 ⟨c.val, hc⟩)
    (fun b => match b with | ⟨0, _⟩ => rfl)

/-- A position from the first vector's length on reads the second vector, that length less. -/
theorem join_vec_right {N₁ N₂ N : ℕ} (x : (⟨1, ![N₁]⟩ : Shape).Idx → α) (y : (⟨1, ![N₂]⟩ : Shape).Idx → α)
    (h : Shape.Concatenates [⟨1, ![N₁]⟩, ⟨1, ![N₂]⟩] ⟨1, ![N]⟩ 0) (c : Fin N) (c' : Fin N₂) (hc : c'.val + N₁ = c.val) :
    concatenate (⟨1, ![N]⟩ : Shape) 0 [⟨⟨1, ![N₁]⟩, x⟩, ⟨⟨1, ![N₂]⟩, y⟩] h (ix1 c) = y (ix1 c') :=
  concatenate_pair_apply_right (t := ⟨1, ![N]⟩) 0 x y h (ix1 c) rfl rfl (ix1 c')
    (fun b hb => match b, hb with
      | ⟨0, _⟩, hb => absurd rfl hb)
    hc

/-! ## A matrix re-cut row-major -/

/-- An `a × b` matrix re-cut as `c × d` reads, at `(i, j)`, the entry `(i', j')` at the same row-major position. -/
theorem recut_apply {a b c d : ℕ} (x : (⟨2, ![a, b]⟩ : Shape).Idx → α) (h : (⟨2, ![a, b]⟩ : Shape).ShapeCasts ⟨2, ![c, d]⟩)
    (i : Fin c) (j : Fin d) (i' : Fin a) (j' : Fin b) (e : i'.val * b + j'.val = i.val * d + j.val) :
    shapeCast (⟨2, ![c, d]⟩ : Shape) x h (ix2 i j) = x (ix2 i' j') :=
  shapeCast_apply x h (ix2 i j) (ix2 i' j') (by
    rw [Shape.rowMajor_val_two, Shape.rowMajor_val_two]
    exact e)

end Cert.Packed
-- ==== Proof.HostLayouts.lean ====
/-
  The host's layouts are what the paired network asks for.

  `diag(W, W)` as the host builds it — `[W | 0]` over `[0 | W]` — has `W` in its two diagonal quarters and the zero word,
  which denotes the extended real `0`, in the other two; a bias concatenated with itself and cast to one row has the bias
  in both halves; and row `R` of the input re-cut to rows of 64 is row `2R` of `z` followed by row `2R + 1`.
-/
import proofs.«422779_j27066883900215_3_alg».proof.Proof.KernelArrays
import proofs.«422779_j27066883900215_3_alg».proof.Proof.Layout
import proofs.«422779_j27066883900215_3_alg».proof.Proof.PairedMlp
import Idealize.ShloMosaic.Lib.ValueLayout
import Idealize.ShloMosaic.PureOps.Ideal.Laws

noncomputable section

namespace Cert.KernelIdeal.Arrays

open Cert.KernelIdeal Idealize.ShloMosaic Idealize.ShloMosaic.ValueIdx Cert.Packed

/-- The host's zero matrix reads `0` everywhere. -/
theorem zeros_apply {S : Shape} (h : S_.BroadcastsInDim S ![]) (i : S.Idx) :
    broadcastInDim S ![] h (constant (F := Ideal) S_ .f32 0x00000000#32) i = 0 :=
  (show Ideal.ofBits .f32 0x00000000#32 = 0 from Ideal.ofBits_zero_f32)

/-- `diag(W1, W1)`: its four quarters. -/
theorem diagW1_blockDiag (A : FVec Ideal S32x128 .f32) :
    IsBlockDiag (K := 32) (N := 128) (M := 64) (P := 256) rfl rfl (diagW1 A) A where
  ul k n := by
    unfold diagW1
    refine (truncf_apply (φ := .f32) (ψ := .bf16) _ _ _).trans ?_
    exact (stack_rows_top _ _ _ _ _ (by show k.val < 32; omega)).trans (side_cols_left A _ _ _ _ (by show n.val < 128; omega))
  ur k n := by
    unfold diagW1
    refine (truncf_apply (φ := .f32) (ψ := .bf16) _ _ _).trans ?_
    refine (stack_rows_top _ _ _ _ _ (by show k.val < 32; omega)).trans ?_
    exact (side_cols_right A _ _ _ _ n (by show n.val + 128 = 128 + n.val; omega)).trans (zeros_apply _ _)
  ll k n := by
    unfold diagW1
    refine (truncf_apply (φ := .f32) (ψ := .bf16) _ _ _).trans ?_
    refine (stack_rows_bottom _ _ _ _ _ k (by show k.val + 32 = 32 + k.val; omega)).trans ?_
    exact (side_cols_left _ A _ _ _ (by show n.val < 128; omega)).trans (zeros_apply _ _)
  lr k n := by
    unfold diagW1
    refine (truncf_apply (φ := .f32) (ψ := .bf16) _ _ _).trans ?_
    refine (stack_rows_bottom _ _ _ _ _ k (by show k.val + 32 = 32 + k.val; omega)).trans ?_
    exact side_cols_right _ A _ _ _ n (by show n.val + 128 = 128 + n.val; omega)

/-- `diag(W2, W2)`: its four quarters. -/
theorem diagW2_blockDiag (A : FVec Ideal S128x128 .f32) :
    IsBlockDiag (K := 128) (N := 128) (M := 256) (P := 256) rfl rfl (diagW2 A) A where
  ul k n := by
    unfold diagW2
    refine (truncf_apply (φ := .f32) (ψ := .bf16) _ _ _).trans ?_
    exact (stack_rows_top _ _ _ _ _ (by show k.val < 128; omega)).trans (side_cols_left A _ _ _ _ (by show n.val < 128; omega))
  ur k n := by
    unfold diagW2
    refine (truncf_apply (φ := .f32) (ψ := .bf16) _ _ _).trans ?_
    refine (stack_rows_top _ _ _ _ _ (by show k.val < 128; omega)).trans ?_
    exact (side_cols_right A _ _ _ _ n (by show n.val + 128 = 128 + n.val; omega)).trans (zeros_apply _ _)
  ll k n := by
    unfold diagW2
    refine (truncf_apply (φ := .f32) (ψ := .bf16) _ _ _).trans ?_
    refine (stack_rows_bottom _ _ _ _ _ k (by show k.val + 128 = 128 + k.val; omega)).trans ?_
    exact (side_cols_left _ A _ _ _ (by show n.val < 128; omega)).trans (zeros_apply _ _)
  lr k n := by
    unfold diagW2
    refine (truncf_apply (φ := .f32) (ψ := .bf16) _ _ _).trans ?_
    refine (stack_rows_bottom _ _ _ _ _ k (by show k.val + 128 = 128 + k.val; omega)).trans ?_
    exact side_cols_right _ A _ _ _ n (by show n.val + 128 = 128 + n.val; omega)

/-- `diag(W3, W3)`: its four quarters. -/
theorem diagW3_blockDiag (A : FVec Ideal S128x64 .f32) :
    IsBlockDiag (K := 128) (N := 64) (M := 256) (P := 128) rfl rfl (diagW3 A) A where
  ul k n := by
    unfold diagW3
    refine (truncf_apply (φ := .f32) (ψ := .bf16) _ _ _).trans ?_
    exact (stack_rows_top _ _ _ _ _ (by show k.val < 128; omega)).trans (side_cols_left A _ _ _ _ (by show n.val < 64; omega))
  ur k n := by
    unfold diagW3
    refine (truncf_apply (φ := .f32) (ψ := .bf16) _ _ _).trans ?_
    refine (stack_rows_top _ _ _ _ _ (by show k.val < 128; omega)).trans ?_
    exact (side_cols_right A _ _ _ _ n (by show n.val + 64 = 64 + n.val; omega)).trans (zeros_apply _ _)
  ll k n := by
    unfold diagW3
    refine (truncf_apply (φ := .f32) (ψ := .bf16) _ _ _).trans ?_
    refine (stack_rows_bottom _ _ _ _ _ k (by show k.val + 128 = 128 + k.val; omega)).trans ?_
    exact (side_cols_left _ A _ _ _ (by show n.val < 64; omega)).trans (zeros_apply _ _)
  lr k n := by
    unfold diagW3
    refine (truncf_apply (φ := .f32) (ψ := .bf16) _ _ _).trans ?_
    refine (stack_rows_bottom _ _ _ _ _ k (by show k.val + 128 = 128 + k.val; omega)).trans ?_
    exact side_cols_right _ A _ _ _ n (by show n.val + 64 = 64 + n.val; omega)

/-- A bias of length 128 twice over, read along its one row. -/
theorem twice256_pair (b : FVec Ideal S128 .f32) :
    IsPair (K := 128) (M := 256) rfl (fun n => twice256 b (ix2 (0 : Fin 1) n)) (fun n => b (ix1 n)) (fun n => b (ix1 n)) where
  lo n := by
    unfold twice256
    exact (shapeCast_a_1a_apply _ _ _ _).trans (join_vec_left b b _ _ (by show n.val < 128; omega))
  hi n := by
    unfold twice256
    exact (shapeCast_a_1a_apply _ _ _ _).trans (join_vec_right b b _ _ n (by show n.val + 128 = 128 + n.val; omega))

/-- A bias of length 64 twice over, read along its one row. -/
theorem twice128_pair (b : FVec Ideal S64 .f32) :
    IsPair (K := 64) (M := 128) rfl (fun n => twice128 b (ix2 (0 : Fin 1) n)) (fun n => b (ix1 n)) (fun n => b (ix1 n)) where
  lo n := by
    unfold twice128
    exact (shapeCast_a_1a_apply _ _ _ _).trans (join_vec_left b b _ _ (by show n.val < 64; omega))
  hi n := by
    unfold twice128
    exact (shapeCast_a_1a_apply _ _ _ _).trans (join_vec_right b b _ _ n (by show n.val + 64 = 64 + n.val; omega))

/-- Row `R` of the re-cut input is row `2R` of `z` followed by row `2R + 1`. -/
theorem rowPairs_pair (z : FVec Ideal S1048576x32 .f32) (R : Fin 524288) :
    IsPair (K := 32) (M := 64) rfl (fun k => rowPairs z (ix2 R k))
      (fun k => z (ix2 (⟨2 * R.val, by omega⟩ : Fin 1048576) k)) (fun k => z (ix2 (⟨2 * R.val + 1, by omega⟩ : Fin 1048576) k)) where
  lo k := by
    unfold rowPairs
    exact recut_apply z _ _ _ _ _ (by show 2 * R.val * 32 + k.val = R.val * 64 + k.val; omega)
  hi k := by
    unfold rowPairs
    exact recut_apply z _ _ _ _ _ (by show (2 * R.val + 1) * 32 + k.val = R.val * 64 + (32 + k.val); omega)

end Cert.KernelIdeal.Arrays

end
-- ==== Proof.Network.lean ====
/-
  The network this certificate is about, at its own sizes: 1048576 input rows of 32 entries, hidden widths 128 and
  128, 64 outputs per row.  `network z W1 b1 W2 b2 W3 b3 i j` is output `j` of input row `i`:
  `relu (relu (z_i · W1 + b1) · W2 + b2) · W3 + b3` at `j`, on the extended reals; `networkArr` is the same as an array.
-/
import proofs.«422779_j27066883900215_3_alg».proof.Proof.PairedMlp

noncomputable section

namespace Cert.Packed

open Idealize.ShloMosaic Idealize.ShloMosaic.ValueIdx

/-- Output `j` of input row `i`. -/
def network (z : (⟨2, ![1048576, 32]⟩ : Shape).Idx → EReal)
    (W1 : (⟨2, ![32, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 64]⟩ : Shape).Idx → EReal) (b3 : (⟨1, ![64]⟩ : Shape).Idx → EReal)
    (i : Fin 1048576) (j : Fin 64) : EReal :=
  mlp (fun k => z (ix2 i k)) W1 (fun n => b1 (ix1 n)) W2 (fun n => b2 (ix1 n)) W3 (fun n => b3 (ix1 n)) j

/-- The whole result, 1048576 × 64. -/
def networkArr (z : (⟨2, ![1048576, 32]⟩ : Shape).Idx → EReal)
    (W1 : (⟨2, ![32, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 64]⟩ : Shape).Idx → EReal) (b3 : (⟨1, ![64]⟩ : Shape).Idx → EReal) :
    (⟨2, ![1048576, 64]⟩ : Shape).Idx → EReal :=
  fun i => network z W1 b1 W2 b2 W3 b3 ⟨(i 0).val, idx2_lt0 i⟩ ⟨(i 1).val, idx2_lt1 i⟩

end Cert.Packed

end
-- ==== Proof.PackedOut.lean ====
/-
  The launch's output, re-cut, is the network.

  Entry `(R, c)` of the launch's 524288 × 128 output is the doubled network of row `R` of the re-cut input.  By the
  pairing theorem its first 64 columns are the network of input row `2R` and its last 64 columns the network of input
  row `2R + 1`.  The program returns this array re-cut row-major to 1048576 × 64: entry `(i, j)` of the result is
  entry `(i / 2, 64 (i mod 2) + j)` of the launch's output, which is output `j` of the network on row `i`.
-/
import proofs.«422779_j27066883900215_3_alg».proof.Proof.HostLayouts
import proofs.«422779_j27066883900215_3_alg».proof.Proof.Network

noncomputable section

namespace Cert.KernelIdeal.Result

open Cert.KernelIdeal Cert.KernelIdeal.Gen Cert.KernelIdeal.Arrays Cert.Packed
open Idealize.ShloMosaic Idealize.ShloMosaic.ValueIdx

/-- Entry `(R, c)` of the launch's output: the doubled network of row `R` of the re-cut input at `c`. -/
def packedEntry (z : FVec Ideal S1048576x32 .f32) (W1 : FVec Ideal S32x128 .f32) (b1 : FVec Ideal S128 .f32)
    (W2 : FVec Ideal S128x128 .f32) (b2 : FVec Ideal S128 .f32) (W3 : FVec Ideal S128x64 .f32) (b3 : FVec Ideal S64 .f32)
    (R : Fin 524288) (c : Fin 128) : EReal :=
  mlp (fun k => rowPairs z (ix2 R k)) (diagW1 W1) (fun n => twice256 b1 (ix2 (0 : Fin 1) n)) (diagW2 W2)
    (fun n => twice256 b2 (ix2 (0 : Fin 1) n)) (diagW3 W3) (fun n => twice128 b3 (ix2 (0 : Fin 1) n)) c

/-- The launch's output array, 524288 × 128. -/
def packedOut (z : FVec Ideal S1048576x32 .f32) (W1 : FVec Ideal S32x128 .f32) (b1 : FVec Ideal S128 .f32)
    (W2 : FVec Ideal S128x128 .f32) (b2 : FVec Ideal S128 .f32) (W3 : FVec Ideal S128x64 .f32) (b3 : FVec Ideal S64 .f32) :
    FVec Ideal S524288x128 .f32 :=
  fun i => packedEntry z W1 b1 W2 b2 W3 b3 ⟨(i 0).val, idx2_lt0 i⟩ ⟨(i 1).val, idx2_lt1 i⟩

variable (z : FVec Ideal S1048576x32 .f32) (W1 : FVec Ideal S32x128 .f32) (b1 : FVec Ideal S128 .f32)
  (W2 : FVec Ideal S128x128 .f32) (b2 : FVec Ideal S128 .f32) (W3 : FVec Ideal S128x64 .f32) (b3 : FVec Ideal S64 .f32)

/-- Row `R` of the launch's output pairs the network's values on input rows `2R` and `2R + 1`. -/
theorem packedEntry_pair (R : Fin 524288) :
    IsPair (K := 64) (M := 128) rfl (packedEntry z W1 b1 W2 b2 W3 b3 R)
      (network z W1 b1 W2 b2 W3 b3 ⟨2 * R.val, by omega⟩) (network z W1 b1 W2 b2 W3 b3 ⟨2 * R.val + 1, by omega⟩) :=
  mlp_pair (K := 32) (H := 128) (O := 64) rfl rfl rfl (rowPairs_pair z R) (diagW1_blockDiag W1) (twice256_pair b1)
    (diagW2_blockDiag W2) (twice256_pair b2) (diagW3_blockDiag W3) (twice128_pair b3)

/-- The launch's output re-cut to 1048576 × 64 is the network. -/
theorem recut_packedOut (h : S524288x128.ShapeCasts S1048576x64) :
    shapeCast S1048576x64 (packedOut z W1 b1 W2 b2 W3 b3) h = networkArr z W1 b1 W2 b2 W3 b3 := by
  funext idx
  obtain ⟨i, j, rfl⟩ : ∃ (i : Fin 1048576) (j : Fin 64), idx = ix2 i j := ⟨idx 0, idx 1, eq_ix2 idx⟩
  show _ = network z W1 b1 W2 b2 W3 b3 i j
  rcases Nat.even_or_odd' i.val with ⟨R, hR | hR⟩
  · have hRlt : R < 524288 := by have := i.isLt; omega
    refine (recut_apply (packedOut z W1 b1 W2 b2 W3 b3) h i j (⟨R, hRlt⟩ : Fin 524288) (⟨j.val, by omega⟩ : Fin 128)
      (by show R * 128 + j.val = i.val * 64 + j.val; omega)).trans ?_
    refine ((packedEntry_pair z W1 b1 W2 b2 W3 b3 ⟨R, hRlt⟩).lo j).trans ?_
    exact congrArg (fun i' => network z W1 b1 W2 b2 W3 b3 i' j) (Fin.ext hR.symm)
  · have hRlt : R < 524288 := by have := i.isLt; omega
    refine (recut_apply (packedOut z W1 b1 W2 b2 W3 b3) h i j (⟨R, hRlt⟩ : Fin 524288) (⟨64 + j.val, by omega⟩ : Fin 128)
      (by show R * 128 + (64 + j.val) = i.val * 64 + j.val; omega)).trans ?_
    refine ((packedEntry_pair z W1 b1 W2 b2 W3 b3 ⟨R, hRlt⟩).hi j).trans ?_
    exact congrArg (fun i' => network z W1 b1 W2 b2 W3 b3 i' j) (Fin.ext hR.symm)

end Cert.KernelIdeal.Result

end
-- ==== Proof.LaunchValue.lean ====
/-
  What the launch leaves in its output array, and what the program returns.

  Grid point `t` loads rows `4096 t … 4096 t + 4095` of the re-cut input and the whole of each weight and bias array,
  and stores, at entry `(r, c)` of its output block, the doubled network of row `4096 t + r` at `c`: that is block `t` of
  ONE function `packedOut` of the argument arrays.  The 128 blocks fill the 524288 × 128 output, so after the launch
  the output array is `packedOut`; the one host operation after the launch re-cuts it to 1048576 × 64, which is the
  network of the arguments (`recut_packedOut`).
-/
import proofs.«422779_j27066883900215_3_alg».proof.Proof.KernelArrays
import proofs.«422779_j27066883900215_3_alg».proof.Proof.KernelPoint
import proofs.«422779_j27066883900215_3_alg».proof.Proof.HostLayouts
import proofs.«422779_j27066883900215_3_alg».proof.Proof.PackedOut
import Idealize.ShloMosaic.Lib.Pipeline.Value

set_option maxRecDepth 16384

noncomputable section

namespace Cert.KernelIdeal.Result

open Cert.KernelIdeal Cert.KernelIdeal.Gen Cert.KernelIdeal.Arrays Cert.KernelIdeal.Point Cert.Packed
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Each point's blocks, at their literal types -/

/-- Point `t`'s block of the re-cut input: 4096 rows of 64. -/
abbrev xblk (c : Dev nD) (t : Fin cfg0.N) : Vec Ideal S4096x64 .f32 := iblk m c 0 t
/-- Point `t`'s blocks of the three weights and the three bias rows. -/
abbrev w1blk (c : Dev nD) (t : Fin cfg0.N) : Vec Ideal S64x256 .bf16 := iblk m c 1 t
abbrev b1blk (c : Dev nD) (t : Fin cfg0.N) : Vec Ideal S1x256 .f32 := iblk m c 2 t
abbrev w2blk (c : Dev nD) (t : Fin cfg0.N) : Vec Ideal S256x256 .bf16 := iblk m c 3 t
abbrev b2blk (c : Dev nD) (t : Fin cfg0.N) : Vec Ideal S1x256 .f32 := iblk m c 4 t
abbrev w3blk (c : Dev nD) (t : Fin cfg0.N) : Vec Ideal S256x128 .bf16 := iblk m c 5 t
abbrev b3blk (c : Dev nD) (t : Fin cfg0.N) : Vec Ideal S1x128 .f32 := iblk m c 6 t

/-- The grid has 128 points. -/
theorem point_lt (t : Fin cfg0.N) : t.val < 128 := lt_of_lt_of_eq t.isLt N_0

/-! ## Each point's blocks -/

/-- Every point's first weight block is the whole of `diag(W1, W1)`. -/
theorem blk_w1 (c : Dev nD) (t : Fin cfg0.N) :
    w1blk m c t = diagW1 (F := Ideal) (m ((c : Thread nD τ).loc main_arg1)) := by
  funext y
  show V m c main_v4 (((cfg0.win 1).blk t).view.emb y) = _
  rw [V_w1]
  refine congrArg _ (funext fun a => Fin.ext ?_)
  obtain ⟨-, -, e0, e1, -⟩ := index_facts t
  match a with
  | ⟨0, _⟩ => show win0_1.index t (0 : Fin 2) * 64 + 1 * (y 0).val = (y 0).val; omega
  | ⟨1, _⟩ => show win0_1.index t (1 : Fin 2) * 256 + 1 * (y 1).val = (y 1).val; omega

/-- Every point's first bias block is the first bias twice over. -/
theorem blk_b1 (c : Dev nD) (t : Fin cfg0.N) :
    b1blk m c t = twice256 (F := Ideal) (m ((c : Thread nD τ).loc main_arg2)) := by
  funext y
  show V m c main_v16 (((cfg0.win 2).blk t).view.emb y) = _
  rw [V_b1]
  refine congrArg _ (funext fun a => Fin.ext ?_)
  obtain ⟨-, -, -, -, e0, e1, -⟩ := index_facts t
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Every point's second weight block is the whole of `diag(W2, W2)`. -/
theorem blk_w2 (c : Dev nD) (t : Fin cfg0.N) :
    w2blk m c t = diagW2 (F := Ideal) (m ((c : Thread nD τ).loc main_arg3)) := by
  funext y
  show V m c main_v9 (((cfg0.win 3).blk t).view.emb y) = _
  rw [V_w2]
  refine congrArg _ (funext fun a => Fin.ext ?_)
  obtain ⟨-, -, -, -, -, -, e0, e1, -⟩ := index_facts t
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Every point's second bias block is the second bias twice over. -/
theorem blk_b2 (c : Dev nD) (t : Fin cfg0.N) :
    b2blk m c t = twice256 (F := Ideal) (m ((c : Thread nD τ).loc main_arg4)) := by
  funext y
  show V m c main_v18 (((cfg0.win 4).blk t).view.emb y) = _
  rw [V_b2]
  refine congrArg _ (funext fun a => Fin.ext ?_)
  obtain ⟨-, -, -, -, -, -, -, -, e0, e1, -⟩ := index_facts t
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Every point's third weight block is the whole of `diag(W3, W3)`. -/
theorem blk_w3 (c : Dev nD) (t : Fin cfg0.N) :
    w3blk m c t = diagW3 (F := Ideal) (m ((c : Thread nD τ).loc main_arg5)) := by
  funext y
  show V m c main_v14 (((cfg0.win 5).blk t).view.emb y) = _
  rw [V_w3]
  refine congrArg _ (funext fun a => Fin.ext ?_)
  obtain ⟨-, -, -, -, -, -, -, -, -, -, e0, e1, -⟩ := index_facts t
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- Every point's third bias block is the third bias twice over. -/
theorem blk_b3 (c : Dev nD) (t : Fin cfg0.N) :
    b3blk m c t = twice128 (F := Ideal) (m ((c : Thread nD τ).loc main_arg6)) := by
  funext y
  show V m c main_v20 (((cfg0.win 6).blk t).view.emb y) = _
  rw [V_b3]
  refine congrArg _ (funext fun a => Fin.ext ?_)
  obtain ⟨-, -, -, -, -, -, -, -, -, -, -, -, e0, e1, -⟩ := index_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Row `r` of point `t`'s input block is row `4096 t + r` of the re-cut input. -/
theorem blk_x (c : Dev nD) (t : Fin cfg0.N) (r : Fin 4096) (k : Fin 64) :
    xblk m c t (ix2 r k)
      = rowPairs (F := Ideal) (m ((c : Thread nD τ).loc main_arg0)) (ix2 (⟨4096 * t.val + r.val, by have := point_lt t; omega⟩ : Fin 524288) k) := by
  show V m c main_v21 (((cfg0.win 0).blk t).view.emb (ix2 r k)) = _
  rw [V_z]
  refine congrArg _ (funext fun a => Fin.ext ?_)
  obtain ⟨e0, e1, -⟩ := index_facts t
  match a with
  | ⟨0, _⟩ => show win0_0.index t (0 : Fin 2) * 4096 + 1 * r.val = 4096 * t.val + r.val; omega
  | ⟨1, _⟩ => show win0_0.index t (1 : Fin 2) * 64 + 1 * k.val = k.val; omega

/-- Entry `(r, c)` of point `t`'s output block sits at `(4096 t + r, c)` of the output array. -/
theorem out_emb (t : Fin cfg0.N) (r : Fin 4096) (cc : Fin 128) :
    (((cfg0.win 7).blk t).view.emb (ix2 r cc) : S524288x128.Idx)
      = ix2 (⟨4096 * t.val + r.val, by have := point_lt t; omega⟩ : Fin 524288) cc := by
  refine funext fun a => Fin.ext ?_
  obtain ⟨-, -, -, -, -, -, -, -, -, -, -, -, -, -, e0, e1⟩ := index_facts t
  match a with
  | ⟨0, _⟩ => show win0_7.index t (0 : Fin 2) * 4096 + 1 * r.val = 4096 * t.val + r.val; omega
  | ⟨1, _⟩ => show win0_7.index t (1 : Fin 2) * 128 + 1 * cc.val = cc.val; omega

/-! ## What a point writes back, and the array after the launch -/

/-- WHAT POINT `t` WRITES BACK is block `t` of `packedOut` of the argument arrays. -/
theorem flushed_eq (c : Dev nD) (t : Fin cfg0.N) :
    (dats m 0 c).flushed 7 t = ((cfg0.win 7).blk t).view.read (Elt Ideal)
      (packedOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  show (cfg0.win 7).cut (grid0.coords t) ((dats m 0 c).after 7 t) = _
  rw [after0_7]
  unfold out0_7
  rw [View.canon_unit_zero hz]
  simp only [View.ld_unit_zero (S := S4096x64) hz, View.ld_unit_zero (S := S64x256) hz, View.ld_unit_zero (S := S1x256) hz,
    View.ld_unit_zero (S := S256x256) hz, View.ld_unit_zero (S := S256x128) hz, View.ld_unit_zero (S := S1x128) hz]
  funext j
  revert j
  show ∀ j : S4096x128.Idx, k0_pay1 (xblk m c t) (w1blk m c t) (b1blk m c t) (w2blk m c t) (b2blk m c t) (w3blk m c t) (b3blk m c t) j
      = packedOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 7).blk t).view.emb j)
  intro j
  obtain ⟨r, cc, rfl⟩ : ∃ (r : Fin 4096) (cc : Fin 128), j = ix2 r cc := ⟨j 0, j 1, eq_ix2 j⟩
  rw [blk_w1, blk_b1, blk_w2, blk_b2, blk_w3, blk_b3, out_emb]
  refine (pay_apply (xblk m c t) _ _ _ _ _ _ r cc).trans ?_
  show _ = packedEntry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (⟨4096 * t.val + r.val, by have := point_lt t; omega⟩ : Fin 524288) cc
  unfold packedEntry
  exact congrArg (fun x => mlp x _ _ _ _ _ _ cc) (funext fun k => blk_x m c t r k)

/-- An index of the output array is in point `t`'s block iff each coordinate is in the block's range on its axis. -/
theorem mem_blk (t : Fin cfg0.N) (i : S524288x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v22).slice (win0_7.rect t)).set ↔ _
  rw [View.set_slice_whole, Rect.mem_set_unit]
  exact Iff.rfl

/-- The 128 blocks of 4096 rows fill the output array: row `i` is in block `i / 4096`. -/
theorem cover (i : S524288x128.Idx) :
    ∃ t : Fin cfg0.N, (cfg0.win 7).flush t = true ∧ i ∈ ((cfg0.win 7).blk t).view.set := by
  have hi0 : (i 0).val < 524288 := (i 0).isLt
  have hi1 : (i 1).val < 128 := (i 1).isLt
  have hq : (i 0).val / 4096 < cfg0.N := lt_of_lt_of_eq (by omega : (i 0).val / 4096 < 128) N_0.symm
  refine ⟨⟨(i 0).val / 4096, hq⟩, flush0_7 _, ?_⟩
  rw [mem_blk]
  obtain ⟨-, -, -, -, -, -, -, -, -, -, -, -, -, -, e0, e1⟩ := index_facts ⟨(i 0).val / 4096, hq⟩
  have e0' : win0_7.index ⟨(i 0).val / 4096, hq⟩ (0 : Fin 2) = (i 0).val / 4096 := e0
  intro a
  match a with
  | ⟨0, _⟩ =>
    show win0_7.index ⟨(i 0).val / 4096, hq⟩ (0 : Fin 2) * 4096 ≤ (i 0).val
      ∧ (i 0).val < win0_7.index ⟨(i 0).val / 4096, hq⟩ (0 : Fin 2) * 4096 + 4096
    omega
  | ⟨1, _⟩ =>
    show win0_7.index ⟨(i 0).val / 4096, hq⟩ (1 : Fin 2) * 128 ≤ (i 1).val
      ∧ (i 1).val < win0_7.index ⟨(i 0).val / 4096, hq⟩ (1 : Fin 2) * 128 + 128
    omega

/-- THE OUTPUT ARRAY after the launch is `packedOut` of the argument arrays. -/
theorem final (c : Dev nD) :
    (dats m 0 c).arrAt 7 cfg0.N = packedOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 _ (fun t _ => flushed_eq m c t) cover

/-! ## The program's result: the output array re-cut -/

/-- After the run the result buffer holds the launch's output re-cut to 1048576 × 64. -/
theorem result_arr (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v23)
      = shapeCast S1048576x64 (packedOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) shapeCasts_S524288x128_S1048576x64 := by
  refine ((h c).2 main_v23 (Pipeline.mem_restRefs_of main_v23 (by decide) (by decide))).trans ?_
  unfold Pipeline.afterTail₀
  show StableHlo.after hostOps1 _ (Proc.devRef .tc main_v23) = _
  after_results
  have hw : Pipeline.withArrays (cfgs 0).spec c (V0 m c) (fun w => (dats m 0 c).arrAt w (cfgs 0).N) (Proc.devRef .tc main_v22)
      = packedOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
    (Pipeline.withArrays_arr spec0 launch0.win.arr_inj c _ _ 7).trans (final m c)
  exact congrArg (fun A => shapeCast S1048576x64 A shapeCasts_S524288x128_S1048576x64) hw

/-! ## The run -/

/-- Every weakly fair execution of the program ends with its result buffer at the network of the argument arrays, and
    the argument arrays as they were: the generated frame run, its post read. -/
theorem run : θ_run defs (onTc (τ := τ) (main (F := Ideal))) ⟨m, fun _ => 0, ρ⟩ fun r => ∀ c : Dev nD,
      r.2.mem ((c : Thread nD τ).loc main_v23)
        = networkArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(result_arr m r h c).trans (recut_packedOut _ _ _ _ _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.ReferenceValue.lean ====
/-
  The reference computes the network.

  The reference's three `dot_general`s contract the left operand's columns with the right operand's rows, each bias
  is broadcast first to one row and then over all rows, and `relu` is the maximum with a broadcast zero word.  Read at
  entry `(i, j)`, layer by layer from the outside, this is `network … i j`.
-/
import proofs.«422779_j27066883900215_3_alg».proof.Proof.Gen.ReferenceIdeal.Run
import proofs.«422779_j27066883900215_3_alg».proof.Proof.PlainDot
import proofs.«422779_j27066883900215_3_alg».proof.Proof.Network
import Idealize.ShloMosaic.Lib.Pipeline.Value

noncomputable section

namespace Cert.ReferenceIdeal.RefValue

open Cert.ReferenceIdeal Cert.ReferenceIdeal.Gen Idealize.ShloMosaic Idealize.ShloMosaic.ValueIdx Cert.Packed

/-- A host product plus a bias broadcast to one row and then over the rows, at entry `(r, n)`: the dense layer of row
    `r` at `n`. -/
theorem host_layer_apply {R K N : ℕ} {φ₁ φ₂ : FTy} (d : DotDims ⟨2, ![R, K]⟩ ⟨2, ![K, N]⟩ ⟨2, ![R, N]⟩) (hd : d = DotDims.plain R K N)
    (x : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (r : Fin R) (n : Fin N) :
    addf (Host.dotGeneral d none x w) (broadcastInDim ⟨2, ![R, N]⟩ ![0, 1] h2 (broadcastInDim ⟨2, ![1, N]⟩ ![1] h1 b)) (ix2 r n)
      = dense (fun k => x (ix2 r k)) w (fun n => b (ix1 n)) n := by
  have e2 : broadcastInDim ⟨2, ![R, N]⟩ ![0, 1] h2 (broadcastInDim ⟨2, ![1, N]⟩ ![1] h1 b) (ix2 r n)
      = broadcastInDim ⟨2, ![1, N]⟩ ![1] h1 b (ix2 (0 : Fin 1) n) :=
    broadcastInDim_apply _ h2 _ (ix2 r n) (ix2 (0 : Fin 1) n) (fun a => match a with
      | ⟨0, _⟩ => by show 0 = if (1 : Nat) = 1 then 0 else r.val; rw [if_pos rfl]
      | ⟨1, _⟩ => by
        show n.val = if N = 1 then 0 else n.val
        split
        · have := n.isLt; omega
        · rfl)
  have e1 : broadcastInDim ⟨2, ![1, N]⟩ ![1] h1 b (ix2 (0 : Fin 1) n) = b (ix1 n) :=
    broadcastInDim_apply _ h1 b (ix2 (0 : Fin 1) n) (ix1 n) (fun a => match a with
      | ⟨0, _⟩ => by
        show n.val = if N = 1 then 0 else n.val
        split
        · have := n.isLt; omega
        · rfl)
  rw [addf_apply, e2, e1]
  exact congrArg (· + b (ix1 n)) (dotGeneral_plain d hd none .single x w r n)

/-- The host's `relu`: a maximum with a broadcast zero word, at entry `(r, n)`. -/
theorem host_rectify_apply {R N : ℕ} (v : FVec Ideal ⟨2, ![R, N]⟩ .f32) (h0 : S_.BroadcastsInDim ⟨2, ![R, N]⟩ ![])
    (f : Fin N → EReal) (r : Fin R) (hv : ∀ n, v (ix2 r n) = f n) (n : Fin N) :
    maximumf v (broadcastInDim ⟨2, ![R, N]⟩ ![] h0 (constant (F := Ideal) S_ .f32 0x00000000#32)) (ix2 r n) = relu f n := by
  show max (v (ix2 r n)) (Ideal.ofBits .f32 0x00000000#32) = max (f n) 0
  rw [hv n, Ideal.ofBits_zero_f32]

/-- The reference run's result term is the network, as an array. -/
theorem result_eq (z : FVec Ideal S1048576x32 .f32) (W1 : FVec Ideal S32x128 .f32) (b1 : FVec Ideal S128 .f32)
    (W2 : FVec Ideal S128x128 .f32) (b2 : FVec Ideal S128 .f32) (W3 : FVec Ideal S128x64 .f32) (b3 : FVec Ideal S64 .f32) :
    addf (Host.dotGeneral dot_S1048576x128_S128x64_S1048576x64_1_0_0_1_n_n none (maximumf (addf (Host.dotGeneral dot_S1048576x128_S128x128_S1048576x128_1_0_0_1_n_n none (maximumf (addf (Host.dotGeneral dot_S1048576x32_S32x128_S1048576x128_1_0_0_1_n_n none z W1) (broadcastInDim S1048576x128 ![0, 1] bcast_S1x128_S1048576x128_0_1 (broadcastInDim S1x128 ![1] bcast_S128_S1x128_1 b1))) (broadcastInDim S1048576x128 ![] bcast_S_S1048576x128 (constant S_ .f32 0x00000000#32))) W2) (broadcastInDim S1048576x128 ![0, 1] bcast_S1x128_S1048576x128_0_1 (broadcastInDim S1x128 ![1] bcast_S128_S1x128_1 b2))) (broadcastInDim S1048576x128 ![] bcast_S_S1048576x128 (constant S_ .f32 0x00000000#32))) W3) (broadcastInDim S1048576x64 ![0, 1] bcast_S1x64_S1048576x64_0_1 (broadcastInDim S1x64 ![1] bcast_S64_S1x64_1 b3))
      = networkArr z W1 b1 W2 b2 W3 b3 := by
  funext idx
  obtain ⟨i, j, rfl⟩ : ∃ (i : Fin 1048576) (j : Fin 64), idx = ix2 i j := ⟨idx 0, idx 1, eq_ix2 idx⟩
  show _ = mlp (fun k => z (ix2 i k)) W1 (fun n => b1 (ix1 n)) W2 (fun n => b2 (ix1 n)) W3 (fun n => b3 (ix1 n)) j
  unfold mlp
  refine (host_layer_apply _ rfl _ W3 b3 _ _ i j).trans ?_
  refine congrArg (fun v => dense v W3 (fun n => b3 (ix1 n)) j) (funext fun k => ?_)
  refine host_rectify_apply _ _ _ i (fun n => ?_) k
  refine (host_layer_apply _ rfl _ W2 b2 _ _ i n).trans ?_
  refine congrArg (fun v => dense v W2 (fun n => b2 (ix1 n)) n) (funext fun k' => ?_)
  refine host_rectify_apply _ _ _ i (fun n' => ?_) k'
  exact host_layer_apply _ rfl _ W1 b1 _ _ i n'

end Cert.ReferenceIdeal.RefValue

end
-- ==== Proof.lean ====
/-
  A three-layer perceptron `relu (relu (z·W1 + b1)·W2 + b2)·W3 + b3` over 1048576 rows, computed two rows at a time.

  The kernel lays pairs of consecutive input rows side by side (a row-major re-cut of `z` to rows of 64), multiplies by
  the block-diagonal weights `diag(W, W)` with the biases doubled, and re-cuts its 524288 × 128 output back to
  1048576 × 64.  On the extended reals a product with the zero blocks contributes `x * 0 = 0` for every `x`, so each
  half of a packed row is the network of its own input row, and the re-cut puts row `2R` and row `2R + 1` back in
  order: the kernel's result is `networkArr` of the arguments.  The reference's three `dot_general`s, broadcast
  biases and maxima with zero are `networkArr` entry by entry.  Changes of float format are the identity at this
  instance, and nothing here needs the inputs to be finite.

  The three frames are the generated ones (the reference's is its generated run with the result dropped); the
  idealization rewrote nothing, so `preserves` is trivial.
-/
import proofs.«422779_j27066883900215_3_alg».proof.Defs
import proofs.«422779_j27066883900215_3_alg».proof.Proof.Gen.Kernel
import proofs.«422779_j27066883900215_3_alg».proof.Proof.Gen.Kernel.Skeleton
import proofs.«422779_j27066883900215_3_alg».proof.Proof.Gen.Kernel.Launch
import proofs.«422779_j27066883900215_3_alg».proof.Proof.Gen.Kernel.Points
import proofs.«422779_j27066883900215_3_alg».proof.Proof.Gen.Kernel.Frame
import proofs.«422779_j27066883900215_3_alg».proof.Proof.Gen.KernelIdeal
import proofs.«422779_j27066883900215_3_alg».proof.Proof.Gen.KernelIdeal.Skeleton
import proofs.«422779_j27066883900215_3_alg».proof.Proof.Gen.KernelIdeal.Launch
import proofs.«422779_j27066883900215_3_alg».proof.Proof.Gen.KernelIdeal.Points
import proofs.«422779_j27066883900215_3_alg».proof.Proof.Gen.KernelIdeal.Frame
import proofs.«422779_j27066883900215_3_alg».proof.Proof.Gen.ReferenceIdeal
import proofs.«422779_j27066883900215_3_alg».proof.Proof.Gen.Pre_finite_inputs
import proofs.«422779_j27066883900215_3_alg».proof.Proof.Gen.ReferenceIdeal.Run
import proofs.«422779_j27066883900215_3_alg».proof.Proof.LaunchValue
import proofs.«422779_j27066883900215_3_alg».proof.Proof.ReferenceValue
import Idealize.ShloMosaic.Adequacy
import Idealize.ShloMosaic.Init

noncomputable section

namespace Cert.Proof

open Idealize.ShloMosaic Idealize.SL.Sem

/-- The kernel runs and keeps its arguments. -/
theorem frame_kernel [Cert.Kernel.Facts] [Cert.Pre_finite_inputs.Facts] : Cert.frame_Kernel :=
  fun m ρ _ => Cert.Kernel.Gen.frame m ρ

/-- So does its reading at the extended reals. -/
theorem frame_kernelIdeal [Cert.KernelIdeal.Facts] [Cert.Pre_finite_inputs.Facts] : Cert.frame_KernelIdeal :=
  fun m ρ _ => Cert.KernelIdeal.Gen.frame m ρ

/-- The reference runs and keeps its arguments: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the network of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact Cert.ReferenceIdeal.RefValue.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
